-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x32 .f32) (main_arg3 : FVec F S32 .f32) (main_arg4 : FVec F S32x16 .f32) (main_arg5 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S5000x128 : Shape := ⟨2, ![5000, 128]⟩
abbrev S5000x32 : Shape := ⟨2, ![5000, 32]⟩
abbrev S3300000x32 : Shape := ⟨2, ![3300000, 32]⟩
abbrev S1x32 : Shape := ⟨2, ![1, 32]⟩
abbrev S100000x16 : Shape := ⟨2, ![100000, 16]⟩
abbrev S5000x16 : Shape := ⟨2, ![5000, 16]⟩
abbrev S3300000x16 : Shape := ⟨2, ![3300000, 16]⟩
abbrev S1x16 : Shape := ⟨2, ![1, 16]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x32, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x1, .f32⟩
  | .hbm, ⟨57, _⟩ => ⟨S3300000x32, .f32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x16, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x16, .f32⟩
  | .hbm, ⟨79, _⟩ => ⟨S3300000x1, .f32⟩
  | .hbm, ⟨80, _⟩ => ⟨S3300000x16, .f32⟩
  | .hbm, ⟨81, _⟩ => ⟨S3300000x16, .f32⟩
  | .hbm, ⟨82, _⟩ => ⟨S_, .f32⟩
  | .hbm, ⟨83, _⟩ => ⟨S100000x16, .f32⟩
  | .hbm, ⟨84, _⟩ => ⟨S3300000x1, .i32⟩
  | .hbm, ⟨85, _⟩ => ⟨S100000x16, .f32⟩
  | .hbm, ⟨86, _⟩ => ⟨S1x16, .f32⟩
  | .hbm, ⟨87, _⟩ => ⟨S100000x16, .f32⟩
  | .hbm, ⟨88, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S32x16, .f32⟩
  | .local _ .vmem, ⟨8, _⟩ => ⟨S5000x16, .f32⟩
  | .local _ .vmem, ⟨9, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S5000x32_S5000x32 : S5000x32.ShapeCasts S5000x32
  inb_S32x16_S32x16_0_0 : ∀ a, (![0, 0] : Fin 2 → Nat) a + S32x16.size a ≤ S32x16.size a
  h_S32x16 : 0 < S32x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x32_S5000x32_1_0_0_1_n_n_wf : DotDims.WF S5000x128 S128x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x16_S5000x16_1_0_0_1_n_n_wf : DotDims.WF S5000x32 S32x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x16.size a ≤ S32x16.size a
  hwx1_1 : ∀ i : grid1.Coords, EltTy.bits .f32 = 32 ∨ (Rect.block (s := S32x16) S32x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S1x3200000 : Shape := ⟨2, ![1, 3200000]⟩
abbrev S3200000 : Shape := ⟨1, ![3200000]⟩
abbrev S100000x32 : Shape := ⟨2, ![100000, 32]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩
abbrev S100000x16 : Shape := ⟨2, ![100000, 16]⟩
abbrev S3300000x16 : Shape := ⟨2, ![3300000, 16]⟩
abbrev S1x16 : Shape := ⟨2, ![1, 16]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x32, .f32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x1, .f32⟩
  | .hbm, ⟨57, _⟩ => ⟨S3300000x32, .f32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x16, .f32⟩
  | .hbm, ⟨70, _⟩ => ⟨S100000, .i32⟩
  | .hbm, ⟨71, _⟩ => ⟨S3300000, .i32⟩
  | .hbm, ⟨72, _⟩ => ⟨S3300000, .i32⟩
  | .hbm, ⟨73, _⟩ => ⟨S_, .f32⟩
  | .hbm, ⟨74, _⟩ => ⟨S3300000, .f32⟩
  | .hbm, ⟨75, _⟩ => ⟨S_, .f32⟩
  | .hbm, ⟨76, _⟩ => ⟨S100000, .f32⟩
  | .hbm, ⟨77, _⟩ => ⟨S3300000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S3300000, .i32⟩
  | .hbm, ⟨89, _⟩ => ⟨S3300000, .i1⟩
  | .hbm, ⟨90, _⟩ => ⟨S_, .i32⟩
  | .hbm, ⟨91, _⟩ => ⟨S3300000, .i32⟩
  | .hbm, ⟨92, _⟩ => ⟨S3300000, .i32⟩
  | .hbm, ⟨93, _⟩ => ⟨S3300000, .i32⟩
  | .hbm, ⟨94, _⟩ => ⟨S3300000x1, .i32⟩
  | .hbm, ⟨95, _⟩ => ⟨S3300000, .f32⟩
  | .hbm, ⟨96, _⟩ => ⟨S_, .i32⟩
  | .hbm, ⟨97, _⟩ => ⟨S3300000, .i32⟩
  | .hbm, ⟨98, _⟩ => ⟨S3300000, .i1⟩
  | .hbm, ⟨99, _⟩ => ⟨S_, .i32⟩
  | .hbm, ⟨100, _⟩ => ⟨S3300000, .i32⟩
  | .hbm, ⟨101, _⟩ => ⟨S3300000, .i32⟩
  | .hbm, ⟨102, _⟩ => ⟨S3300000, .i32⟩
  | .hbm, ⟨103, _⟩ => ⟨S3300000x1, .i32⟩
  | .hbm, ⟨104, _⟩ => ⟨S3300000, .f32⟩
  | .hbm, ⟨105, _⟩ => ⟨S3300000, .f32⟩
  | .hbm, ⟨106, _⟩ => ⟨S_, .i32⟩
  | .hbm, ⟨107, _⟩ => ⟨S3300000, .i32⟩
  | .hbm, ⟨108, _⟩ => ⟨S3300000, .i1⟩
  | .hbm, ⟨109, _⟩ => ⟨S_, .i32⟩
  | .hbm, ⟨110, _⟩ => ⟨S3300000, .i32⟩
  | .hbm, ⟨111, _⟩ => ⟨S3300000, .i32⟩
  | .hbm, ⟨112, _⟩ => ⟨S3300000, .i32⟩
  | .hbm, ⟨113, _⟩ => ⟨S3300000x1, .i32⟩
  | .hbm, ⟨114, _⟩ => ⟨S3300000x16, .f32⟩
  | .hbm, ⟨115, _⟩ => ⟨S3300000x1, .f32⟩
  | .hbm, ⟨116, _⟩ => ⟨S3300000x16, .f32⟩
  | .hbm, ⟨117, _⟩ => ⟨S3300000x16, .f32⟩
  | .hbm, ⟨118, _⟩ => ⟨S_, .f32⟩
  | .hbm, ⟨119, _⟩ => ⟨S100000x16, .f32⟩
  | .hbm, ⟨120, _⟩ => ⟨S3300000x1, .i32⟩
  | .hbm, ⟨121, _⟩ => ⟨S100000x16, .f32⟩
  | .hbm, ⟨122, _⟩ => ⟨S1x16, .f32⟩
  | .hbm, ⟨123, _⟩ => ⟨S100000x16, .f32⟩
  | .hbm, ⟨124, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x128_S128x32_S100000x32_1_0_0_1_n_n_wf : DotDims.WF S100000x128 S128x32 S100000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x16_S100000x16_1_0_0_1_n_n_wf : DotDims.WF S100000x32 S32x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

class Facts : Prop extends Facts₀ where

variable [Facts]
-- ==== Proof.Chains.lean ====
/-
  The host computation of a two-layer graph convolution, as named functions of arrays.

  From the edge list `e` (two rows of endpoints): the endpoint lists with one self loop per node appended
  (`srcOf`, `dstOf`); an index made non-negative by adding the node count (`wrap`); the in-degree with self loops
  `degOf`, its inverse square root where positive and zero elsewhere (`dinvOf`), and the symmetric edge weight
  `normOf = dinv[s] · dinv[d]`.  A layer gathers the rows of its features `h` at the sources, scales each by the edge
  weight, sums them into the destinations and adds the bias; the first layer then takes the positive part
  (`layer1`), the second is the result (`layer2`).  The program computes the edge weight once and uses it in both
  layers.

  Each stretch of host operations of the program is then read, over ANY contents of the buffers it starts from, as
  these functions of the buffers it reads: the stretch before the first kernel (`entry_*`), the one between the two
  kernels (`mid_*`) and the one after the second (`exit_*`).
-/
import proofs.«162302_j17592186044939_1_alg».proof.Proof.Gen.KernelIdeal.Launch
import Idealize.ShloMosaic.Lib.StableHlo.Run

set_option maxRecDepth 16384

noncomputable section

namespace Cert.KernelIdeal.Gen.Chains

open Idealize.ShloMosaic Idealize.ShloMosaic.TcCoe Idealize.SL.Sem Idealize.ShloMosaic.StableHlo

variable {F : FTy → Type} [FloatOps F]

/-! ## The functions -/

/-- The sources, then every node once (its self loop). -/
def srcOf (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The destinations, then every node once. -/
def dstOf (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A negative index counts from the end: add the node count to it. -/
def wrap (v : (⟨S3300000, .i32⟩ : BufTy).Contents (Elt F)) : (⟨S3300000, .i32⟩ : BufTy).Contents (Elt F) :=
  select (cmpi .slt v (broadcastInDim S3300000 ![] bcast_S_S3300000 (constantI S_ 32 0#32))) (addi v (broadcastInDim S3300000 ![] bcast_S_S3300000 (constantI S_ 32 100000#32))) v

/-- The in-degree of every node, self loops counted: ones summed into the destinations. -/
def degOf (d : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 d) (broadcastInDim S3300000 ![] bcast_S_S3300000 (constant S_ .f32 0x3F800000#32))

/-- The inverse square root of the degree where it is positive, zero elsewhere. -/
def dinvOf (d : (⟨S3300000, .i32⟩ : BufTy).Contents (Elt F)) : (⟨S100000, .f32⟩ : BufTy).Contents (Elt F) :=
  select (cmpf (F := F) .ogt (degOf d) (broadcastInDim S100000 ![] bcast_S_S100000 (constant S_ .f32 0x00000000#32))) (Host.rsqrt (degOf d)) (broadcastInDim S100000 ![] bcast_S_S100000 (id (constant S_ .f32 0x00000000#32)))

/-- The symmetric weight of every edge: the two endpoints' inverse square-root degrees multiplied. -/
def normOf (dinv : (⟨S100000, .f32⟩ : BufTy).Contents (Elt F)) (s d : (⟨S3300000, .i32⟩ : BufTy).Contents (Elt F)) :
    (⟨S3300000, .f32⟩ : BufTy).Contents (Elt F) :=
  mulf (Host.gather gather_S100000_S3300000x1_S3300000_n_0_n_n_0_1_1 dinv (broadcastInDim S3300000x1 ![0] bcast_S3300000_S3300000x1_0 (wrap s))) (Host.gather gather_S100000_S3300000x1_S3300000_n_0_n_n_0_1_1 dinv (broadcastInDim S3300000x1 ![0] bcast_S3300000_S3300000x1_0 (wrap d)))

/-- The first layer after its product `h`: weighted rows summed into the destinations, the bias, the positive part. -/
def layer1 (h : (⟨S100000x32, .f32⟩ : BufTy).Contents (Elt F)) (s d : (⟨S3300000, .i32⟩ : BufTy).Contents (Elt F))
    (n : (⟨S3300000, .f32⟩ : BufTy).Contents (Elt F)) (b : (⟨S32, .f32⟩ : BufTy).Contents (Elt F)) :
    (⟨S100000x32, .f32⟩ : BufTy).Contents (Elt F) :=
  maximumf (addf (Host.scatterAdd scatter_S100000x32_S3300000x1_S3300000x32_1_0_0_1 (broadcastInDim S100000x32 ![] bcast_S_S100000x32 (constant S_ .f32 0x00000000#32)) (broadcastInDim S3300000x1 ![0] bcast_S3300000_S3300000x1_0 d) (mulf (Host.gather gather_S100000x32_S3300000x1_S3300000x32_1_0_n_n_0_1_132 h (broadcastInDim S3300000x1 ![0] bcast_S3300000_S3300000x1_0 (wrap s))) (broadcastInDim S3300000x32 ![0, 1] bcast_S3300000x1_S3300000x32_0_1 (broadcastInDim S3300000x1 ![0] bcast_S3300000_S3300000x1_0 n)))) (broadcastInDim S100000x32 ![0, 1] bcast_S1x32_S100000x32_0_1 (broadcastInDim S1x32 ![1] bcast_S32_S1x32_1 b))) (broadcastInDim S100000x32 ![] bcast_S_S100000x32 (constant S_ .f32 0x00000000#32))

/-- The second layer after its product `h`: weighted rows summed into the destinations, and the bias. -/
def layer2 (h : (⟨S100000x16, .f32⟩ : BufTy).Contents (Elt F)) (s d : (⟨S3300000, .i32⟩ : BufTy).Contents (Elt F))
    (n : (⟨S3300000, .f32⟩ : BufTy).Contents (Elt F)) (b : (⟨S16, .f32⟩ : BufTy).Contents (Elt F)) :
    (⟨S100000x16, .f32⟩ : BufTy).Contents (Elt F) :=
  addf (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 d) (mulf (Host.gather gather_S100000x16_S3300000x1_S3300000x16_1_0_n_n_0_1_116 h (broadcastInDim S3300000x1 ![0] bcast_S3300000_S3300000x1_0 (wrap s))) (broadcastInDim S3300000x16 ![0, 1] bcast_S3300000x1_S3300000x16_0_1 (broadcastInDim S3300000x1 ![0] bcast_S3300000_S3300000x1_0 n)))) (broadcastInDim S100000x16 ![0, 1] bcast_S1x16_S100000x16_0_1 (broadcastInDim S1x16 ![1] bcast_S16_S1x16_1 b))

/-- The edge weight straight from the edge list. -/
def weightOf (e : (⟨S2x3200000, .i32⟩ : BufTy).Contents (Elt F)) : (⟨S3300000, .f32⟩ : BufTy).Contents (Elt F) :=
  normOf (dinvOf (dstOf e)) (srcOf e) (dstOf e)

/-! ## The stretch before the first kernel, over any starting contents -/

/-- The starting contents after the three lists of operations before the first kernel. -/
abbrev entry (V : Valuation τ sig (Elt F)) : Valuation τ sig (Elt F) :=
  StableHlo.after hostOps0_2 (StableHlo.after hostOps0_1 (StableHlo.after hostOps0 V))

theorem entry_src (V : Valuation τ sig (Elt F)) :
    entry V (Proc.devRef .tc main_v5) = srcOf (V (Proc.devRef .tc main_arg1)) := by
  after_results_simp <;> rfl

theorem entry_dst (V : Valuation τ sig (Elt F)) :
    entry V (Proc.devRef .tc main_v6) = dstOf (V (Proc.devRef .tc main_arg1)) := by
  after_results_simp <;> rfl

theorem entry_weight (V : Valuation τ sig (Elt F)) :
    entry V (Proc.devRef .tc main_v29) = weightOf (V (Proc.devRef .tc main_arg1)) := by
  after_results_simp <;> (try simp only [TRef.ofBuf, TRef.toBuf, cast_eq]) <;> rfl

theorem entry_arg (V : Valuation τ sig (Elt F)) (r : Ref sig .tc)
    (hr : r = main_arg0 ∨ r = main_arg2 ∨ r = main_arg3 ∨ r = main_arg4 ∨ r = main_arg5) :
    entry V (Proc.devRef .tc r) = V (Proc.devRef .tc r) := by
  rcases hr with rfl | rfl | rfl | rfl | rfl <;> after_results_simp <;> rfl

/-! ## The stretch between the kernels -/

abbrev mid (V : Valuation τ sig (Elt F)) : Valuation τ sig (Elt F) :=
  StableHlo.after hostOps1_1 (StableHlo.after hostOps1 V)

theorem mid_layer (V : Valuation τ sig (Elt F)) :
    mid V (Proc.devRef .tc main_v47)
      = layer1 (V (Proc.devRef .tc main_v30)) (V (Proc.devRef .tc main_v5)) (V (Proc.devRef .tc main_v6))
          (V (Proc.devRef .tc main_v29)) (V (Proc.devRef .tc main_arg3)) := by
  after_results_simp <;> (try simp only [TRef.ofBuf, TRef.toBuf, cast_eq]) <;> rfl

theorem mid_keeps (V : Valuation τ sig (Elt F)) (r : Ref sig .tc)
    (hr : r = main_v5 ∨ r = main_v6 ∨ r = main_v29 ∨ r = main_arg4 ∨ r = main_arg5) :
    mid V (Proc.devRef .tc r) = V (Proc.devRef .tc r) := by
  rcases hr with rfl | rfl | rfl | rfl | rfl <;> after_results_simp <;> rfl

/-! ## The stretch after the second kernel -/

theorem exit_result (V : Valuation τ sig (Elt F)) :
    StableHlo.after hostOps2 V (Proc.devRef .tc main_v64)
      = layer2 (V (Proc.devRef .tc main_v48)) (V (Proc.devRef .tc main_v5)) (V (Proc.devRef .tc main_v6))
          (V (Proc.devRef .tc main_v29)) (V (Proc.devRef .tc main_arg5)) := by
  after_results_simp <;> rfl

end Cert.KernelIdeal.Gen.Chains

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.MatProd.lean ====
/-
  The product of two matrices of extended reals as ONE function of the whole arrays.

  `mm x w` at the entry (p, q) is the sum over i of x(p, i) · w(i, q).  A host `dot_general` that contracts the left
  operand's second axis with the right operand's first one IS this function of its operands, and so is a kernel's
  matrix product into a zero accumulator after a change of float format, which at the exact instance is the identity:
  the two programs' products are then one term, whatever is computed before and after them.
-/
import proofs.«162302_j17592186044939_1_alg».proof.Proof.LibPlainDot

noncomputable section

open scoped BigOperators

namespace MatProd

open Idealize.ShloMosaic Idealize.ShloMosaic.ValueIdx

variable {M K N : Nat}

/-- The M×K by K×N product over the extended reals, entry by entry. -/
def mm (x : (⟨2, ![M, K]⟩ : Shape).Idx → EReal) (w : (⟨2, ![K, N]⟩ : Shape).Idx → EReal) :
    (⟨2, ![M, N]⟩ : Shape).Idx → EReal :=
  fun j => ∑ i : Fin K, x (ix2 (j 0) i) * w (ix2 i (j 1))

/-- At an entry given by its coordinates. -/
theorem mm_apply (x : (⟨2, ![M, K]⟩ : Shape).Idx → EReal) (w : (⟨2, ![K, N]⟩ : Shape).Idx → EReal) (p : Fin M) (q : Fin N) :
    mm x w (ix2 p q) = ∑ i : Fin K, x (ix2 p i) * w (ix2 i q) := rfl

variable {d : DotDims ⟨2, ![M, K]⟩ ⟨2, ![K, N]⟩ ⟨2, ![M, N]⟩}

/-- The host's `dot_general` with plain dimension numbers is the product, as whole arrays. -/
theorem dotGeneral_eq (h : PlainDot.IsPlain d) (prec : Option ContractPrecision)
    (lhs : FVec Ideal ⟨2, ![M, K]⟩ .f32) (rhs : FVec Ideal ⟨2, ![K, N]⟩ .f32) :
    Host.dotGeneral d prec lhs rhs = mm lhs rhs := by
  funext j
  obtain ⟨p, q, rfl⟩ : ∃ (p : Fin M) (q : Fin N), j = ix2 p q := ⟨j 0, j 1, eq_ix2 j⟩
  exact PlainDot.dotGeneral_apply h prec .single lhs rhs p q

/-- A kernel's product of the two operands narrowed to another float format, into a zero accumulator, read at an
    entry: the narrowing is the identity on extended reals, so it is the product's entry. -/
theorem matmul_truncf_apply (h : PlainDot.IsPlain d) (prec : Option ContractPrecision) {ψ : FTy}
    (hψ : ψ.bits < FTy.f32.bits)
    (lhs : FVec Ideal ⟨2, ![M, K]⟩ .f32) (rhs : FVec Ideal ⟨2, ![K, N]⟩ .f32) (p : Fin M) (q : Fin N) :
    matmul d prec (truncf ψ lhs hψ) (truncf ψ rhs hψ) (constant ⟨2, ![M, N]⟩ .f32 0x00000000#32) (ix2 p q)
      = mm lhs rhs (ix2 p q) :=
  PlainDot.matmul_zero_apply h prec (truncf ψ lhs hψ) (truncf ψ rhs hψ) p q

end MatProd

end
-- ==== Proof.Payloads.lean ====
/-
  What each kernel body stores, read at an entry.

  Both bodies load a block of rows of the left array and the whole right array, narrow both to another float format —
  the identity on extended reals —, and multiply them into a zero accumulator (the second body first casts the left
  block to its own shape, which changes nothing).  So the stored block at the entry (p, q) is the sum over i of
  left(p, i) · right(i, q): the product of the two loaded blocks.
-/
import proofs.«162302_j17592186044939_1_alg».proof.Proof.Gen.KernelIdeal.Skeleton
import proofs.«162302_j17592186044939_1_alg».proof.Proof.MatProd
import Idealize.ShloMosaic.Lib.Pipeline.Value

noncomputable section

open scoped BigOperators

namespace Cert.KernelIdeal.Gen.Payloads

open Idealize.ShloMosaic Idealize.ShloMosaic.ValueIdx

/-- The first kernel's dimension numbers are those of a plain product. -/
theorem plain0 : PlainDot.IsPlain (M := 5000) (K := 128) (N := 32) dot_S5000x128_S128x32_S5000x32_1_0_0_1_n_n :=
  ⟨rfl, rfl, rfl, rfl, rfl, rfl⟩

/-- So are the second kernel's. -/
theorem plain1 : PlainDot.IsPlain (M := 5000) (K := 32) (N := 16) dot_S5000x32_S32x16_S5000x16_1_0_0_1_n_n :=
  ⟨rfl, rfl, rfl, rfl, rfl, rfl⟩

/-- The first body's stored value at an entry is the product of its two loaded blocks at that entry. -/
theorem pay0_apply (x0 : Vec Ideal S5000x128 .f32) (x1 : Vec Ideal S128x32 .f32) (p : Fin 5000) (q : Fin 32) :
    k0_pay1 (F := Ideal) x0 x1 (ix2 p q) = MatProd.mm x0 x1 (ix2 p q) := by
  unfold k0_pay1
  exact MatProd.matmul_truncf_apply plain0 none bitsLt_bf16_f32 x0 x1 p q

/-- The second body's, the same: the cast of the left block to its own shape is the block. -/
theorem pay1_apply (x0 : Vec Ideal S5000x32 .f32) (x1 : Vec Ideal S32x16 .f32) (p : Fin 5000) (q : Fin 16) :
    k1_pay1 (F := Ideal) x0 x1 (ix2 p q) = MatProd.mm x0 x1 (ix2 p q) := by
  unfold k1_pay1
  have e : shapeCast S5000x32 x0 shapeCasts_S5000x32_S5000x32 = x0 := shapeCast_self x0 _
  rw [e]
  exact MatProd.matmul_truncf_apply plain1 none bitsLt_bf16_f32 x0 x1 p q

end Cert.KernelIdeal.Gen.Payloads

end
-- ==== Proof.Region0.lean ====
/-
  The first kernel's output array after its run: the product of the two arrays it reads.

  The kernel runs on twenty points; point t reads rows 5000·t … 5000·t + 4999 of the left array (all 128 columns)
  and the whole right array, and writes the product of those blocks to the same rows of the output (all 32
  columns).  Entry (p, q) of the block is the sum over i of left(5000·t + p, i) · right(i, q), which is entry
  (5000·t + p, q) of the product of the WHOLE arrays.  The twenty row blocks tile the output, so the array ends
  holding the whole product.
-/
import proofs.«162302_j17592186044939_1_alg».proof.Proof.Gen.KernelIdeal.Frame
import proofs.«162302_j17592186044939_1_alg».proof.Proof.Payloads
import Idealize.ShloMosaic.Lib.Pipeline.Value

set_option maxRecDepth 16384

noncomputable section

open scoped BigOperators

namespace Cert.KernelIdeal.Gen.Region0

open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The printed index maps over the grid: point t's left block and output block sit at the same row block, every
    other block index is zero. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every row block is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

variable (V : (c : Dev nD) → (b : Ref sig .tc) → Buf (Elt Ideal) ((c : Thread nD τ).loc b))

/-- The left array as the kernel finds it, at its literal type. -/
abbrev lhsArr (c : Dev nD) : (⟨2, ![100000, 128]⟩ : Shape).Idx → EReal := V c main_arg0
/-- The right array as the kernel finds it, at its literal type. -/
abbrev rhsArr (c : Dev nD) : (⟨2, ![128, 32]⟩ : Shape).Idx → EReal := V c main_arg2

/-- What point t writes back is block t of the product of the two whole arrays as the kernel finds them. -/
theorem flushed_eq (c : Dev nD) (t : Fin cfg0.N) :
    (dat0 V c).flushed 2 t = ((cfg0.win 2).blk t).view.read (Elt Ideal) (MatProd.mm (lhsArr V c) (rhsArr V c)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x32) hz]
  obtain ⟨e0, e1, e2, e3, e4, e5⟩ := idx_facts t
  funext j
  obtain ⟨p, q, rfl⟩ : ∃ (p : Fin 5000) (q : Fin 32), j = ix2 p q := ⟨j 0, j 1, eq_ix2 j⟩
  refine (Payloads.pay0_apply (iblk0 V c 0 t) (iblk0 V c 1 t) p q).trans ?_
  show ∑ i : Fin 128, lhsArr V c (((cfg0.win 0).blk t).view.emb (ix2 p i)) * rhsArr V c (((cfg0.win 1).blk t).view.emb (ix2 i q))
      = ∑ i : Fin 128, lhsArr V c (ix2 ((((cfg0.win 2).blk t).view.emb (ix2 p q)) 0) i) * rhsArr V c (ix2 i ((((cfg0.win 2).blk t).view.emb (ix2 p q)) 1))
  refine Finset.sum_congr rfl fun i _ => ?_
  have h0 : ((cfg0.win 0).blk t).view.emb (ix2 p i) = ix2 ((((cfg0.win 2).blk t).view.emb (ix2 p q)) 0) i := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * i.val = i.val; omega
  have h1 : ((cfg0.win 1).blk t).view.emb (ix2 i q) = ix2 i ((((cfg0.win 2).blk t).view.emb (ix2 p q)) 1) := by
    funext a; apply Fin.ext
    match a with
    | ⟨0, _⟩ => show win0_1.index t (0 : Fin 2) * 128 + 1 * i.val = i.val; omega
    | ⟨1, _⟩ => show win0_1.index t (1 : Fin 2) * 32 + 1 * q.val = win0_2.index t (1 : Fin 2) * 32 + 1 * q.val; omega
  rw [h0, h1]
  rfl

/-- An index of the output is in point t's block iff each coordinate is in the block's range on its axis. -/
theorem mem_blk (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v30).slice (win0_2.rect t)).set ↔ _
  rw [View.set_slice_whole, Rect.mem_set_unit]
  exact Iff.rfl

/-- The twenty row blocks tile the output: row r is in point r / 5000's block. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 32 ≤ (i 1).val ∧ (i 1).val < win0_2.index t (1 : Fin 2) * 32 + 32; omega

/-- THE OUTPUT ARRAY after the kernel's run: the product of the two arrays it was entered with. -/
theorem out_eq (c : Dev nD) :
    (dat0 V c).arrAt 2 cfg0.N = MatProd.mm (lhsArr V c) (rhsArr V c) :=
  (dat0 V c).arrAt_eq_of_cover 2 _ (fun t _ => flushed_eq V c t) cover

end Cert.KernelIdeal.Gen.Region0

end
-- ==== Proof.Region1.lean ====
/-
  The second kernel's output array after its run: the product of the two arrays it reads.

  The kernel runs on twenty points; point t reads rows 5000·t … 5000·t + 4999 of the left array (all 32 columns)
  and the whole right array, and writes the product of those blocks to the same rows of the output (all 16
  columns).  Entry (p, q) of the block is the sum over i of left(5000·t + p, i) · right(i, q), which is entry
  (5000·t + p, q) of the product of the WHOLE arrays.  The twenty row blocks tile the output, so the array ends
  holding the whole product.
-/
import proofs.«162302_j17592186044939_1_alg».proof.Proof.Gen.KernelIdeal.Frame
import proofs.«162302_j17592186044939_1_alg».proof.Proof.Payloads
import Idealize.ShloMosaic.Lib.Pipeline.Value

set_option maxRecDepth 16384

noncomputable section

open scoped BigOperators

namespace Cert.KernelIdeal.Gen.Region1

open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The printed index maps over the grid: point t's left block and output block sit at the same row block, every
    other block index is zero. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 19 :=
  (by decide +kernel : ∀ t : Fin grid1.N, _)

/-- Every row block is some point's. -/
theorem idx_onto : ∀ q0 : Fin 20, ∃ t : Fin cfg1.N, win1_2.index t = ![q0.val, 0] :=
  (by decide +kernel : ∀ q0 : Fin 20, ∃ t : Fin grid1.N, win1_2.index t = ![q0.val, 0])

variable (V : (c : Dev nD) → (b : Ref sig .tc) → Buf (Elt Ideal) ((c : Thread nD τ).loc b))

/-- The left array as the kernel finds it, at its literal type. -/
abbrev lhsArr (c : Dev nD) : (⟨2, ![100000, 32]⟩ : Shape).Idx → EReal := V c main_v47
/-- The right array as the kernel finds it, at its literal type. -/
abbrev rhsArr (c : Dev nD) : (⟨2, ![32, 16]⟩ : Shape).Idx → EReal := V c main_arg4

/-- What point t writes back is block t of the product of the two whole arrays as the kernel finds them. -/
theorem flushed_eq (c : Dev nD) (t : Fin cfg1.N) :
    (dat1 V c).flushed 2 t = ((cfg1.win 2).blk t).view.read (Elt Ideal) (MatProd.mm (lhsArr V c) (rhsArr V c)) := by
  show (cfg1.win 2).cut (grid1.coords t) ((dat1 V c).after 2 t) = _
  rw [after1_2]
  unfold out1_2
  rw [View.canon_unit_zero hz]
  simp only [View.ld_unit_zero (S := S5000x32) hz, View.ld_unit_zero (S := S32x16) hz]
  obtain ⟨e0, e1, e2, e3, e4, e5⟩ := idx_facts t
  funext j
  obtain ⟨p, q, rfl⟩ : ∃ (p : Fin 5000) (q : Fin 16), j = ix2 p q := ⟨j 0, j 1, eq_ix2 j⟩
  refine (Payloads.pay1_apply (iblk1 V c 0 t) (iblk1 V c 1 t) p q).trans ?_
  show ∑ i : Fin 32, lhsArr V c (((cfg1.win 0).blk t).view.emb (ix2 p i)) * rhsArr V c (((cfg1.win 1).blk t).view.emb (ix2 i q))
      = ∑ i : Fin 32, lhsArr V c (ix2 ((((cfg1.win 2).blk t).view.emb (ix2 p q)) 0) i) * rhsArr V c (ix2 i ((((cfg1.win 2).blk t).view.emb (ix2 p q)) 1))
  refine Finset.sum_congr rfl fun i _ => ?_
  have h0 : ((cfg1.win 0).blk t).view.emb (ix2 p i) = ix2 ((((cfg1.win 2).blk t).view.emb (ix2 p q)) 0) i := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 32 + 1 * i.val = i.val; omega
  have h1 : ((cfg1.win 1).blk t).view.emb (ix2 i q) = ix2 i ((((cfg1.win 2).blk t).view.emb (ix2 p q)) 1) := by
    funext a; apply Fin.ext
    match a with
    | ⟨0, _⟩ => show win1_1.index t (0 : Fin 2) * 32 + 1 * i.val = i.val; omega
    | ⟨1, _⟩ => show win1_1.index t (1 : Fin 2) * 16 + 1 * q.val = win1_2.index t (1 : Fin 2) * 16 + 1 * q.val; omega
  rw [h0, h1]
  rfl

/-- An index of the output is in point t's block iff each coordinate is in the block's range on its axis. -/
theorem mem_blk (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v48).slice (win1_2.rect t)).set ↔ _
  rw [View.set_slice_whole, Rect.mem_set_unit]
  exact Iff.rfl

/-- The twenty row blocks tile the output: row r is in point r / 5000's block. -/
theorem cover (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 16 ≤ (i 1).val ∧ (i 1).val < win1_2.index t (1 : Fin 2) * 16 + 16; omega

/-- THE OUTPUT ARRAY after the kernel's run: the product of the two arrays it was entered with. -/
theorem out_eq (c : Dev nD) :
    (dat1 V c).arrAt 2 cfg1.N = MatProd.mm (lhsArr V c) (rhsArr V c) :=
  (dat1 V c).arrAt_eq_of_cover 2 _ (fun t _ => flushed_eq V c t) cover

end Cert.KernelIdeal.Gen.Region1

end
-- ==== Proof.Gcn.lean ====
/-
  The two-layer graph convolution as ONE function of the six argument arrays, at the exact instance.

  `gcn x e W1 b1 W2 b2 = layer2 ((layer1 (x·W1) s d n b1)·W2) s d n b2`, where s and d are the edge list's two endpoint
  lists with the self loops appended, n the symmetric edge weight, and · the matrix product over the extended reals.
  Both programs are shown to end with this array.
-/
import proofs.«162302_j17592186044939_1_alg».proof.Proof.Chains
import proofs.«162302_j17592186044939_1_alg».proof.Proof.MatProd

noncomputable section

namespace Cert.Gcn

open Idealize.ShloMosaic
open Cert.KernelIdeal.Gen.Chains

/-- The two layers over the two products, the edge weight computed once. -/
def gcn (x : (⟨2, ![100000, 128]⟩ : Shape).Idx → EReal) (e : (⟨Cert.KernelIdeal.S2x3200000, .i32⟩ : BufTy).Contents (Elt Ideal))
    (w1 : (⟨2, ![128, 32]⟩ : Shape).Idx → EReal) (b1 : (⟨Cert.KernelIdeal.S32, .f32⟩ : BufTy).Contents (Elt Ideal))
    (w2 : (⟨2, ![32, 16]⟩ : Shape).Idx → EReal) (b2 : (⟨Cert.KernelIdeal.S16, .f32⟩ : BufTy).Contents (Elt Ideal)) :
    (⟨Cert.KernelIdeal.S100000x16, .f32⟩ : BufTy).Contents (Elt Ideal) :=
  layer2 (MatProd.mm (layer1 (MatProd.mm x w1) (srcOf e) (dstOf e) (weightOf e) b1) w2) (srcOf e) (dstOf e) (weightOf e) b2

end Cert.Gcn

end
-- ==== Proof.KernelValue.lean ====
/-
  The kernel program's result buffer at the end of its run, as a function of the six argument arrays.

  The buffer contents are followed from the launch to the return, boundary by boundary: the host operations before
  the first kernel leave the two endpoint lists and the edge weight (functions of the edge list alone) and touch no
  argument; the first kernel leaves the product x·W1 in its output array and nothing else changes; the operations
  between the kernels leave the first layer; the second kernel leaves the first layer's product with W2; the
  operations after it leave the second layer, the result.  Composed, the result is `gcn` of the arguments.
-/
import proofs.«162302_j17592186044939_1_alg».proof.Proof.Gen.KernelIdeal.Frame
import proofs.«162302_j17592186044939_1_alg».proof.Proof.Chains
import proofs.«162302_j17592186044939_1_alg».proof.Proof.Region0
import proofs.«162302_j17592186044939_1_alg».proof.Proof.Region1
import proofs.«162302_j17592186044939_1_alg».proof.Proof.Gcn

set_option maxRecDepth 16384

noncomputable section

namespace Cert.KernelIdeal.Gen.Composed

open Idealize.ShloMosaic Idealize.ShloMosaic.TcCoe Idealize.SL.Sem
open Cert.KernelIdeal.Gen.Chains

variable (m : (ℓ : Loc nD τ sig) → Buf (Elt Ideal) ℓ) (ρ : Dev nD → PrngReg)

/-! ## At the first kernel's entry -/

theorem W3_src (c : Dev nD) : W3 m ρ c (Proc.devRef .tc main_v5) = srcOf (m ((c : Thread nD τ).loc main_arg1)) :=
  entry_src (W0 m ρ c)
theorem W3_dst (c : Dev nD) : W3 m ρ c (Proc.devRef .tc main_v6) = dstOf (m ((c : Thread nD τ).loc main_arg1)) :=
  entry_dst (W0 m ρ c)
theorem W3_weight (c : Dev nD) : W3 m ρ c (Proc.devRef .tc main_v29) = weightOf (m ((c : Thread nD τ).loc main_arg1)) :=
  entry_weight (W0 m ρ c)
theorem W3_arg0 (c : Dev nD) : W3 m ρ c (Proc.devRef .tc main_arg0) = m ((c : Thread nD τ).loc main_arg0) :=
  entry_arg (W0 m ρ c) main_arg0 (.inl rfl)
theorem W3_arg2 (c : Dev nD) : W3 m ρ c (Proc.devRef .tc main_arg2) = m ((c : Thread nD τ).loc main_arg2) :=
  entry_arg (W0 m ρ c) main_arg2 (.inr (.inl rfl))
theorem W3_arg3 (c : Dev nD) : W3 m ρ c (Proc.devRef .tc main_arg3) = m ((c : Thread nD τ).loc main_arg3) :=
  entry_arg (W0 m ρ c) main_arg3 (.inr (.inr (.inl rfl)))
theorem W3_arg4 (c : Dev nD) : W3 m ρ c (Proc.devRef .tc main_arg4) = m ((c : Thread nD τ).loc main_arg4) :=
  entry_arg (W0 m ρ c) main_arg4 (.inr (.inr (.inr (.inl rfl))))
theorem W3_arg5 (c : Dev nD) : W3 m ρ c (Proc.devRef .tc main_arg5) = m ((c : Thread nD τ).loc main_arg5) :=
  entry_arg (W0 m ρ c) main_arg5 (.inr (.inr (.inr (.inr rfl))))

/-! ## At the first kernel's exit -/

/-- The first kernel's output array: the product of the features and the first weight matrix. -/
theorem W4_prod (c : Dev nD) :
    W4 m ρ c (Proc.devRef .tc main_v30)
      = MatProd.mm (m ((c : Thread nD τ).loc main_arg0)) (m ((c : Thread nD τ).loc main_arg2)) := by
  refine (W4_arr m ρ c 2).trans ((Region0.out_eq (V3 m ρ) c).trans ?_)
  show MatProd.mm (W3 m ρ c (Proc.devRef .tc main_arg0)) (W3 m ρ c (Proc.devRef .tc main_arg2)) = _
  rw [W3_arg0, W3_arg2]

theorem W4_src (c : Dev nD) : W4 m ρ c (Proc.devRef .tc main_v5) = srcOf (m ((c : Thread nD τ).loc main_arg1)) :=
  (W4_of_ne m ρ c main_v5 (by decide)).trans (W3_src m ρ c)
theorem W4_dst (c : Dev nD) : W4 m ρ c (Proc.devRef .tc main_v6) = dstOf (m ((c : Thread nD τ).loc main_arg1)) :=
  (W4_of_ne m ρ c main_v6 (by decide)).trans (W3_dst m ρ c)
theorem W4_weight (c : Dev nD) : W4 m ρ c (Proc.devRef .tc main_v29) = weightOf (m ((c : Thread nD τ).loc main_arg1)) :=
  (W4_of_ne m ρ c main_v29 (by decide)).trans (W3_weight m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

/-! ## At the second kernel's entry -/

/-- The first layer, of the arguments. -/
abbrev hidden (c : Dev nD) : (⟨S100000x32, .f32⟩ : BufTy).Contents (Elt Ideal) :=
  layer1 (MatProd.mm (m ((c : Thread nD τ).loc main_arg0)) (m ((c : Thread nD τ).loc main_arg2)))
    (srcOf (m ((c : Thread nD τ).loc main_arg1))) (dstOf (m ((c : Thread nD τ).loc main_arg1)))
    (weightOf (m ((c : Thread nD τ).loc main_arg1))) (m ((c : Thread nD τ).loc main_arg3))

theorem W6_hidden (c : Dev nD) : W6 m ρ c (Proc.devRef .tc main_v47) = hidden m c := by
  refine (mid_layer (W4 m ρ c)).trans ?_
  rw [W4_prod, W4_src, W4_dst, W4_weight, W4_arg3]

theorem W6_src (c : Dev nD) : W6 m ρ c (Proc.devRef .tc main_v5) = srcOf (m ((c : Thread nD τ).loc main_arg1)) :=
  (mid_keeps (W4 m ρ c) main_v5 (.inl rfl)).trans (W4_src m ρ c)
theorem W6_dst (c : Dev nD) : W6 m ρ c (Proc.devRef .tc main_v6) = dstOf (m ((c : Thread nD τ).loc main_arg1)) :=
  (mid_keeps (W4 m ρ c) main_v6 (.inr (.inl rfl))).trans (W4_dst m ρ c)
theorem W6_weight (c : Dev nD) : W6 m ρ c (Proc.devRef .tc main_v29) = weightOf (m ((c : Thread nD τ).loc main_arg1)) :=
  (mid_keeps (W4 m ρ c) main_v29 (.inr (.inr (.inl rfl)))).trans (W4_weight m ρ c)
theorem W6_arg4 (c : Dev nD) : W6 m ρ c (Proc.devRef .tc main_arg4) = m ((c : Thread nD τ).loc main_arg4) :=
  (mid_keeps (W4 m ρ c) main_arg4 (.inr (.inr (.inr (.inl rfl))))).trans (W4_arg4 m ρ c)
theorem W6_arg5 (c : Dev nD) : W6 m ρ c (Proc.devRef .tc main_arg5) = m ((c : Thread nD τ).loc main_arg5) :=
  (mid_keeps (W4 m ρ c) main_arg5 (.inr (.inr (.inr (.inr rfl))))).trans (W4_arg5 m ρ c)

/-! ## At the second kernel's exit -/

/-- The second kernel's output array: the product of the first layer and the second weight matrix. -/
theorem W7_prod (c : Dev nD) :
    W7 m ρ c (Proc.devRef .tc main_v48) = MatProd.mm (hidden m c) (m ((c : Thread nD τ).loc main_arg4)) := by
  refine (W7_arr m ρ c 2).trans ((Region1.out_eq (V6 m ρ) c).trans ?_)
  show MatProd.mm (W6 m ρ c (Proc.devRef .tc main_v47)) (W6 m ρ c (Proc.devRef .tc main_arg4)) = _
  rw [W6_hidden, W6_arg4]

theorem W7_src (c : Dev nD) : W7 m ρ c (Proc.devRef .tc main_v5) = srcOf (m ((c : Thread nD τ).loc main_arg1)) :=
  (W7_of_ne m ρ c main_v5 (by decide)).trans (W6_src m ρ c)
theorem W7_dst (c : Dev nD) : W7 m ρ c (Proc.devRef .tc main_v6) = dstOf (m ((c : Thread nD τ).loc main_arg1)) :=
  (W7_of_ne m ρ c main_v6 (by decide)).trans (W6_dst m ρ c)
theorem W7_weight (c : Dev nD) : W7 m ρ c (Proc.devRef .tc main_v29) = weightOf (m ((c : Thread nD τ).loc main_arg1)) :=
  (W7_of_ne m ρ c main_v29 (by decide)).trans (W6_weight m ρ c)
theorem W7_arg5 (c : Dev nD) : W7 m ρ c (Proc.devRef .tc main_arg5) = m ((c : Thread nD τ).loc main_arg5) :=
  (W7_of_ne m ρ c main_arg5 (by decide)).trans (W6_arg5 m ρ c)

/-! ## At the return -/

/-- THE RESULT: the last boundary's contents at the result buffer are `gcn` of the six arguments. -/
theorem result_eq (c : Dev nD) :
    W8 m ρ c (Proc.devRef .tc main_v64)
      = Cert.Gcn.gcn (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  refine (exit_result (W7 m ρ c)).trans ?_
  rw [W7_prod, W7_src, W7_dst, W7_weight, W7_arg5]
  rfl

end Cert.KernelIdeal.Gen.Composed

end
-- ==== Proof.RefTerm.lean ====
/-
  The reference's result in the same named functions as the kernel program's.

  The reference computes, layer by layer, the same chain of host operations as the kernel program — it recomputes
  the edge weight in the second layer from the same edge list, which gives the same array — with a host
  `dot_general` where the kernel program launches a kernel.  Its composed term IS therefore
  `layer2 (dot (layer1 (dot x W1) s d n b1) W2) s d n b2` over the named functions, by unfolding alone and for any
  float family; and at the exact instance each `dot_general` is the product `MatProd.mm` of its operands.
-/
import proofs.«162302_j17592186044939_1_alg».proof.Proof.RefRun
import proofs.«162302_j17592186044939_1_alg».proof.Proof.Chains
import proofs.«162302_j17592186044939_1_alg».proof.Proof.MatProd
import proofs.«162302_j17592186044939_1_alg».proof.Proof.Gcn

set_option maxRecDepth 16384

noncomputable section

namespace Cert.RefSide

open Idealize.ShloMosaic Idealize.ShloMosaic.TcCoe Idealize.SL.Sem
open Cert.KernelIdeal.Gen.Chains

section AnyFamily
variable {F : FTy → Type} [FloatOps F]
variable (m : (ℓ : Loc Cert.ReferenceIdeal.nD Cert.ReferenceIdeal.τ Cert.ReferenceIdeal.sig) → Buf (Elt F) ℓ)

/-- The reference's result term is the two layers over its two products, the edge weight computed once. -/
theorem res_eq (c : Dev Cert.ReferenceIdeal.nD) :
    Cert.ReferenceIdeal.RunP.res_main_v90 m c
      = layer2 (Host.dotGeneral Cert.ReferenceIdeal.dot_S100000x32_S32x16_S100000x16_1_0_0_1_n_n none
          (layer1 (Host.dotGeneral Cert.ReferenceIdeal.dot_S100000x128_S128x32_S100000x32_1_0_0_1_n_n none
                (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg2)))
            (srcOf (m ((c.tc : Thread Cert.ReferenceIdeal.nD Cert.ReferenceIdeal.τ).loc Cert.ReferenceIdeal.main_arg1)))
            (dstOf (m ((c.tc : Thread Cert.ReferenceIdeal.nD Cert.ReferenceIdeal.τ).loc Cert.ReferenceIdeal.main_arg1)))
            (weightOf (m ((c.tc : Thread Cert.ReferenceIdeal.nD Cert.ReferenceIdeal.τ).loc Cert.ReferenceIdeal.main_arg1)))
            (m ((c.tc : Thread Cert.ReferenceIdeal.nD Cert.ReferenceIdeal.τ).loc Cert.ReferenceIdeal.main_arg3)))
          (m ((c.tc : Thread Cert.ReferenceIdeal.nD Cert.ReferenceIdeal.τ).loc Cert.ReferenceIdeal.main_arg4)))
        (srcOf (m ((c.tc : Thread Cert.ReferenceIdeal.nD Cert.ReferenceIdeal.τ).loc Cert.ReferenceIdeal.main_arg1)))
        (dstOf (m ((c.tc : Thread Cert.ReferenceIdeal.nD Cert.ReferenceIdeal.τ).loc Cert.ReferenceIdeal.main_arg1)))
        (weightOf (m ((c.tc : Thread Cert.ReferenceIdeal.nD Cert.ReferenceIdeal.τ).loc Cert.ReferenceIdeal.main_arg1)))
        (m ((c.tc : Thread Cert.ReferenceIdeal.nD Cert.ReferenceIdeal.τ).loc Cert.ReferenceIdeal.main_arg5)) := by
  unfold Cert.ReferenceIdeal.RunP.res_main_v90 layer2 layer1 weightOf normOf dinvOf degOf wrap srcOf dstOf
  rfl

end AnyFamily

/-- The reference's two sets of dimension numbers are those of a plain product. -/
theorem plain1 : PlainDot.IsPlain (M := 100000) (K := 128) (N := 32) Cert.ReferenceIdeal.dot_S100000x128_S128x32_S100000x32_1_0_0_1_n_n :=
  ⟨rfl, rfl, rfl, rfl, rfl, rfl⟩
theorem plain2 : PlainDot.IsPlain (M := 100000) (K := 32) (N := 16) Cert.ReferenceIdeal.dot_S100000x32_S32x16_S100000x16_1_0_0_1_n_n :=
  ⟨rfl, rfl, rfl, rfl, rfl, rfl⟩

variable (m : (ℓ : Loc Cert.ReferenceIdeal.nD Cert.ReferenceIdeal.τ Cert.ReferenceIdeal.sig) → Buf (Elt Ideal) ℓ)

/-- At the exact instance the reference ends with `gcn` of its arguments. -/
theorem res_value (c : Dev Cert.ReferenceIdeal.nD) :
    Cert.ReferenceIdeal.RunP.res_main_v90 (F := Ideal) m c
      = Cert.Gcn.gcn (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5)) := by
  rw [res_eq, MatProd.dotGeneral_eq plain1, MatProd.dotGeneral_eq plain2]
  rfl

end Cert.RefSide

end
-- ==== Proof.lean ====
/-
  Two layers of a graph convolution with self loops and symmetric normalisation, computed by a program that runs the
  two dense products `x·W1` and `h·W2` as TensorCore kernels (each on twenty blocks of 5000 rows, the operands narrowed
  to another float format before the product) and everything else on the host, against the all-host reference, which
  recomputes the edge weight in its second layer.

  Over the extended reals the two programs end with the same array: `gcn` of the six arguments (Proof/Gcn.lean).
  * The kernel program: each kernel leaves in its output array the matrix product of the arrays it reads — a block of
    rows of the product is the product of that block of rows, the narrowing is the identity, and the blocks tile the
    output (Proof/Payloads.lean, Proof/Region0.lean, Proof/Region1.lean); the host operations around the kernels are
    read off as the layers' named functions (Proof/Chains.lean) and composed from the launch to the return
    (Proof/KernelValue.lean) over the program's run with its result buffer named (Proof/KernelRun.lean).
  * The reference: its result term is the same named functions over two host products, each of which is the matrix
    product of its operands (Proof/RefTerm.lean over Proof/RefRun.lean).
  No law beyond "a product's entry is the sum over the contracted index" joins the two sides, so the precondition
  (finite inputs) is never opened.  The idealization rewrote nothing, so `preserves` is trivial; the two kernel
  programs' frames are the generated ones and the reference's frame is its run with the result dropped.
-/
import proofs.«162302_j17592186044939_1_alg».proof.Defs
import proofs.«162302_j17592186044939_1_alg».proof.Proof.Gen.Kernel
import proofs.«162302_j17592186044939_1_alg».proof.Proof.Gen.Kernel.Skeleton
import proofs.«162302_j17592186044939_1_alg».proof.Proof.Gen.Kernel.Launch
import proofs.«162302_j17592186044939_1_alg».proof.Proof.Gen.Kernel.Points
import proofs.«162302_j17592186044939_1_alg».proof.Proof.Gen.Kernel.Frame
import proofs.«162302_j17592186044939_1_alg».proof.Proof.Gen.KernelIdeal
import proofs.«162302_j17592186044939_1_alg».proof.Proof.Gen.KernelIdeal.Skeleton
import proofs.«162302_j17592186044939_1_alg».proof.Proof.Gen.KernelIdeal.Launch
import proofs.«162302_j17592186044939_1_alg».proof.Proof.Gen.KernelIdeal.Points
import proofs.«162302_j17592186044939_1_alg».proof.Proof.Gen.KernelIdeal.Frame
import proofs.«162302_j17592186044939_1_alg».proof.Proof.Gen.ReferenceIdeal
import proofs.«162302_j17592186044939_1_alg».proof.Proof.Gen.Pre_finite_inputs
import proofs.«162302_j17592186044939_1_alg».proof.Proof.KernelRun
import proofs.«162302_j17592186044939_1_alg».proof.Proof.KernelValue
import proofs.«162302_j17592186044939_1_alg».proof.Proof.RefRun
import proofs.«162302_j17592186044939_1_alg».proof.Proof.RefTerm
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Both idealized programs end with `gcn` of their arguments, which agree. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Gen.Composed.result_eq m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.RunP.run (F := Ideal) m' ρ')
    rw [Cert.RefSide.res_value m' c, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
